-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S3200000 : Shape := ⟨1, ![3200000]⟩
abbrev S2x2000000 : Shape := ⟨2, ![2, 2000000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg7 : FVec F S64x32 .f32) (main_arg8 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg7
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg8
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x256 .f32) (main_arg1 : IVec S3200000 32) (main_arg2 : IVec S3200000 32) (main_arg3 : FVec F S3200000 .f32) (main_arg4 : IVec S2x2000000 32) (main_arg5 : FVec F S256x64 .f32) (main_arg6 : FVec F S64 .f32) (main_arg7 : FVec F S64x32 .f32) (main_arg8 : FVec F S32 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S256x64 .f32 := Host.absf main_arg5
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_v13 main_v16
-- ==== Kernel.lean ====
abbrev S100000x256 : Shape := ⟨2, ![100000, 256]⟩
abbrev S3200000 : Shape := ⟨1, ![3200000]⟩
abbrev S2x2000000 : Shape := ⟨2, ![2, 2000000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S100000x64 : Shape := ⟨2, ![100000, 64]⟩
abbrev S5000x256 : Shape := ⟨2, ![5000, 256]⟩
abbrev S5000x64 : Shape := ⟨2, ![5000, 64]⟩
abbrev S3200000x1 : Shape := ⟨2, ![3200000, 1]⟩
abbrev S_ : Shape := ⟨0, ![]⟩
abbrev S3200000x64 : Shape := ⟨2, ![3200000, 64]⟩
abbrev S1x64 : Shape := ⟨2, ![1, 64]⟩
abbrev S100000x32 : Shape := ⟨2, ![100000, 32]⟩
abbrev S5000x32 : Shape := ⟨2, ![5000, 32]⟩
abbrev S3200000x32 : Shape := ⟨2, ![3200000, 32]⟩
abbrev S1x32 : Shape := ⟨2, ![1, 32]⟩
abbrev S1x2000000 : Shape := ⟨2, ![1, 2000000]⟩
abbrev S2000000 : Shape := ⟨1, ![2000000]⟩
abbrev S2000000x1 : Shape := ⟨2, ![2000000, 1]⟩
abbrev S2000000x32 : Shape := ⟨2, ![2000000, 32]⟩
abbrev S2015232x32 : Shape := ⟨2, ![2015232, 32]⟩
abbrev S2015232 : Shape := ⟨1, ![2015232]⟩
abbrev S16384x32 : Shape := ⟨2, ![16384, 32]⟩
abbrev S16384 : Shape := ⟨1, ![16384]⟩

abbrev nBuf : Space → Nat
  | .hbm => 77
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S2x2000000, .i32⟩
  | .hbm, ⟨5, _⟩ => ⟨S256x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S100000x64, .f32⟩
  | .hbm, ⟨10, _⟩ => ⟨S3200000x1, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x64, .f32⟩
  | .hbm, ⟨20, _⟩ => ⟨S3200000x64, .f32⟩
  | .hbm, ⟨21, _⟩ => ⟨S3200000x64, .f32⟩
  | .hbm, ⟨22, _⟩ => ⟨S_, .f32⟩
  | .hbm, ⟨23, _⟩ => ⟨S100000x64, .f32⟩
  | .hbm, ⟨24, _⟩ => ⟨S3200000x1, .i32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x32, .f32⟩
  | .hbm, ⟨29, _⟩ => ⟨S3200000x1, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x32, .f32⟩
  | .hbm, ⟨39, _⟩ => ⟨S3200000x32, .f32⟩
  | .hbm, ⟨40, _⟩ => ⟨S3200000x32, .f32⟩
  | .hbm, ⟨41, _⟩ => ⟨S_, .f32⟩
  | .hbm, ⟨42, _⟩ => ⟨S100000x32, .f32⟩
  | .hbm, ⟨43, _⟩ => ⟨S3200000x1, .i32⟩
  | .hbm, ⟨44, _⟩ => ⟨S100000x32, .f32⟩
  | .hbm, ⟨45, _⟩ => ⟨S1x32, .f32⟩
  | .hbm, ⟨46, _⟩ => ⟨S100000x32, .f32⟩
  | .hbm, ⟨47, _⟩ => ⟨S1x2000000, .i32⟩
  | .hbm, ⟨48, _⟩ => ⟨S2000000, .i32⟩
  | .hbm, ⟨49, _⟩ => ⟨S1x2000000, .i32⟩
  | .hbm, ⟨50, _⟩ => ⟨S2000000, .i32⟩
  | .hbm, ⟨51, _⟩ => ⟨S_, .i32⟩
  | .hbm, ⟨52, _⟩ => ⟨S2000000, .i32⟩
  | .hbm, ⟨53, _⟩ => ⟨S2000000, .i1⟩
  | .hbm, ⟨54, _⟩ => ⟨S_, .i32⟩
  | .hbm, ⟨55, _⟩ => ⟨S2000000, .i32⟩
  | .hbm, ⟨56, _⟩ => ⟨S2000000, .i32⟩
  | .hbm, ⟨57, _⟩ => ⟨S2000000, .i32⟩
  | .hbm, ⟨58, _⟩ => ⟨S2000000x1, .i32⟩
  | .hbm, ⟨59, _⟩ => ⟨S2000000x32, .f32⟩
  | .hbm, ⟨60, _⟩ => ⟨S_, .i32⟩
  | .hbm, ⟨61, _⟩ => ⟨S2000000, .i32⟩
  | .hbm, ⟨62, _⟩ => ⟨S2000000, .i1⟩
  | .hbm, ⟨63, _⟩ => ⟨S_, .i32⟩
  | .hbm, ⟨64, _⟩ => ⟨S2000000, .i32⟩
  | .hbm, ⟨65, _⟩ => ⟨S2000000, .i32⟩
  | .hbm, ⟨66, _⟩ => ⟨S2000000, .i32⟩
  | .hbm, ⟨67, _⟩ => ⟨S2000000x1, .i32⟩
  | .hbm, ⟨68, _⟩ => ⟨S2000000x32, .f32⟩
  | .hbm, ⟨69, _⟩ => ⟨S_, .i32⟩
  | .hbm, ⟨70, _⟩ => ⟨S_, .f32⟩
  | .hbm, ⟨71, _⟩ => ⟨S2015232x32, .f32⟩
  | .hbm, ⟨72, _⟩ => ⟨S_, .i32⟩
  | .hbm, ⟨73, _⟩ => ⟨S_, .f32⟩
  | .hbm, ⟨74, _⟩ => ⟨S2015232x32, .f32⟩
  | .hbm, ⟨75, _⟩ => ⟨S2015232, .f32⟩
  | .hbm, ⟨76, _⟩ => ⟨S2000000, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S16384x32, .f32⟩
  | .local _ .vmem, ⟨21, _⟩ => ⟨S16384x32, .f32⟩
  | .local _ .vmem, ⟨22, _⟩ => ⟨S16384x32, .f32⟩
  | .local _ .vmem, ⟨23, _⟩ => ⟨S16384x32, .f32⟩
  | .local _ .vmem, ⟨24, _⟩ => ⟨S16384, .f32⟩
  | .local _ .vmem, ⟨25, _⟩ => ⟨S16384, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_4 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_6 : Ref sig .tc := ⟨.hbm, 60, rfl⟩
abbrev main_v43 : Ref sig .tc := ⟨.hbm, 61, rfl⟩
abbrev main_v44 : Ref sig .tc := ⟨.hbm, 62, rfl⟩
abbrev main_c_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_call0_v0 : Ref sig .tc := ⟨.hbm, 70, rfl⟩
abbrev main_v50 : Ref sig .tc := ⟨.hbm, 71, rfl⟩
abbrev main_c_9 : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![123], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  ![arg0.toNat]

abbrev stage4_0 : Fin 2 → Memref sig .tc .vmem S16384x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S16384x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S16384 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  pads_S2000000x32_S2015232x32_0152320_000 : S2000000x32.Pads (![0, 0] : Fin 2 → Nat) ![15232, 0] ![0, 0] S2015232x32
  h_S_ : 0 < S_.numel
  inb_S16384x32_S16384x32_0_0 : ∀ a, (![0, 0] : Fin 2 → Nat) a + S16384x32.size a ≤ S16384x32.size a
  h_S16384x32 : 0 < S16384x32.numel
  shapeCasts_S16384x32_S16384x32 : S16384x32.ShapeCasts S16384x32
  reduces_S16384x32_S16384 : S16384x32.Reduces [1] S16384
  inb_S16384_S16384_0 : ∀ a, (![0] : Fin 1 → Nat) a + S16384.size a ≤ S16384.size a
  h_S16384 : 0 < S16384.numel
  slices_S2015232_S2000000_0 : S2015232.Slices ![0] S2000000
  dot_S5000x256_S256x64_S5000x64_1_0_0_1_n_n_wf : DotDims.WF S5000x256 S256x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x32_S5000x32_1_0_0_1_n_n_wf : DotDims.WF S5000x64 S64x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  gather_S100000x32_S2000000x1_S2000000x32_1_0_n_n_0_1_132_wf : GatherDims.WF S100000x32 S2000000x1 S2000000x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S16384x32.size a ≤ S2015232x32.size a
  hwx4_0 : ∀ i : grid4.Coords, EltTy.bits .f32 = 32 ∨ (Rect.block (s := S2015232x32) S16384x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S16384x32.size a ≤ S2015232x32.size a
  hwx4_1 : ∀ i : grid4.Coords, EltTy.bits .f32 = 32 ∨ (Rect.block (s := S2015232x32) S16384x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S16384.size a ≤ S2015232.size a
  hwx4_2 : ∀ i : grid4.Coords, EltTy.bits .f32 = 32 ∨ (Rect.block (s := S2015232) S16384.size (cc4_transform_2 i) (hinb4_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v50) S16384x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S16384x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S16384.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x256 : Shape := ⟨2, ![100000, 256]⟩
abbrev S3200000 : Shape := ⟨1, ![3200000]⟩
abbrev S2x2000000 : Shape := ⟨2, ![2, 2000000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S100000x64 : Shape := ⟨2, ![100000, 64]⟩
abbrev S3200000x1 : Shape := ⟨2, ![3200000, 1]⟩
abbrev S_ : Shape := ⟨0, ![]⟩
abbrev S3200000x64 : Shape := ⟨2, ![3200000, 64]⟩
abbrev S1x64 : Shape := ⟨2, ![1, 64]⟩
abbrev S100000x32 : Shape := ⟨2, ![100000, 32]⟩
abbrev S3200000x32 : Shape := ⟨2, ![3200000, 32]⟩
abbrev S1x32 : Shape := ⟨2, ![1, 32]⟩
abbrev S1x2000000 : Shape := ⟨2, ![1, 2000000]⟩
abbrev S2000000 : Shape := ⟨1, ![2000000]⟩
abbrev S2000000x1 : Shape := ⟨2, ![2000000, 1]⟩
abbrev S2000000x32 : Shape := ⟨2, ![2000000, 32]⟩

abbrev nBuf : Space → Nat
  | .hbm => 77
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S2x2000000, .i32⟩
  | .hbm, ⟨5, _⟩ => ⟨S256x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S100000x64, .f32⟩
  | .hbm, ⟨10, _⟩ => ⟨S3200000x1, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x64, .f32⟩
  | .hbm, ⟨20, _⟩ => ⟨S3200000x64, .f32⟩
  | .hbm, ⟨21, _⟩ => ⟨S3200000x64, .f32⟩
  | .hbm, ⟨22, _⟩ => ⟨S_, .f32⟩
  | .hbm, ⟨23, _⟩ => ⟨S100000x64, .f32⟩
  | .hbm, ⟨24, _⟩ => ⟨S3200000x1, .i32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x64, .f32⟩
  | .hbm, ⟨29, _⟩ => ⟨S_, .f32⟩
  | .hbm, ⟨30, _⟩ => ⟨S100000x64, .f32⟩
  | .hbm, ⟨31, _⟩ => ⟨S100000x64, .f32⟩
  | .hbm, ⟨32, _⟩ => ⟨S100000x32, .f32⟩
  | .hbm, ⟨33, _⟩ => ⟨S3200000x1, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000x32, .f32⟩
  | .hbm, ⟨43, _⟩ => ⟨S3200000x32, .f32⟩
  | .hbm, ⟨44, _⟩ => ⟨S3200000x32, .f32⟩
  | .hbm, ⟨45, _⟩ => ⟨S_, .f32⟩
  | .hbm, ⟨46, _⟩ => ⟨S100000x32, .f32⟩
  | .hbm, ⟨47, _⟩ => ⟨S3200000x1, .i32⟩
  | .hbm, ⟨48, _⟩ => ⟨S100000x32, .f32⟩
  | .hbm, ⟨49, _⟩ => ⟨S1x32, .f32⟩
  | .hbm, ⟨50, _⟩ => ⟨S100000x32, .f32⟩
  | .hbm, ⟨51, _⟩ => ⟨S100000x32, .f32⟩
  | .hbm, ⟨52, _⟩ => ⟨S1x2000000, .i32⟩
  | .hbm, ⟨53, _⟩ => ⟨S2000000, .i32⟩
  | .hbm, ⟨54, _⟩ => ⟨S1x2000000, .i32⟩
  | .hbm, ⟨55, _⟩ => ⟨S2000000, .i32⟩
  | .hbm, ⟨56, _⟩ => ⟨S_, .i32⟩
  | .hbm, ⟨57, _⟩ => ⟨S2000000, .i32⟩
  | .hbm, ⟨58, _⟩ => ⟨S2000000, .i1⟩
  | .hbm, ⟨59, _⟩ => ⟨S_, .i32⟩
  | .hbm, ⟨60, _⟩ => ⟨S2000000, .i32⟩
  | .hbm, ⟨61, _⟩ => ⟨S2000000, .i32⟩
  | .hbm, ⟨62, _⟩ => ⟨S2000000, .i32⟩
  | .hbm, ⟨63, _⟩ => ⟨S2000000x1, .i32⟩
  | .hbm, ⟨64, _⟩ => ⟨S2000000x32, .f32⟩
  | .hbm, ⟨65, _⟩ => ⟨S_, .i32⟩
  | .hbm, ⟨66, _⟩ => ⟨S2000000, .i32⟩
  | .hbm, ⟨67, _⟩ => ⟨S2000000, .i1⟩
  | .hbm, ⟨68, _⟩ => ⟨S_, .i32⟩
  | .hbm, ⟨69, _⟩ => ⟨S2000000, .i32⟩
  | .hbm, ⟨70, _⟩ => ⟨S2000000, .i32⟩
  | .hbm, ⟨71, _⟩ => ⟨S2000000, .i32⟩
  | .hbm, ⟨72, _⟩ => ⟨S2000000x1, .i32⟩
  | .hbm, ⟨73, _⟩ => ⟨S2000000x32, .f32⟩
  | .hbm, ⟨74, _⟩ => ⟨S2000000x32, .f32⟩
  | .hbm, ⟨75, _⟩ => ⟨S_, .f32⟩
  | .hbm, ⟨76, _⟩ => ⟨S2000000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_4 : Ref sig .tc := ⟨.hbm, 56, rfl⟩
abbrev main_v39 : Ref sig .tc := ⟨.hbm, 57, rfl⟩
abbrev main_v40 : Ref sig .tc := ⟨.hbm, 58, rfl⟩
abbrev main_c_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_6 : Ref sig .tc := ⟨.hbm, 65, rfl⟩
abbrev main_v46 : Ref sig .tc := ⟨.hbm, 66, rfl⟩
abbrev main_v47 : Ref sig .tc := ⟨.hbm, 67, rfl⟩
abbrev main_c_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  reducesTo_S2000000x32_S2000000_d1 : S2000000x32.ReducesTo [1] S2000000
  h_S_ : 0 < S_.numel
  dot_S100000x256_S256x64_S100000x64_1_0_0_1_n_n_wf : DotDims.WF S100000x256 S256x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  gather_S100000x32_S2000000x1_S2000000x32_1_0_n_n_0_1_132_wf : GatherDims.WF S100000x32 S2000000x1 S2000000x32 [1] [0] [] [0] [] 1 ![1, 32]

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf

class Facts : Prop extends Facts₀ where

variable [Facts]
-- ==== Proof.Spec.lean ====
/-
  The mathematics of the two-layer graph convolution with an inner-product decoder, as whole-array functions at the
  extended reals, index by index. Every dense stage of the kernel program and of the reference is one of these
  five functions; the sparse stages between them (gathering rows at the edge sources, scaling by the edge weights,
  scatter-adding at the edge targets, gathering the decoder's rows) are the same host operations in both programs
  and are never opened.

  * `dense1 x W`      : row r, column c  ↦  ∑ₖ x[r,k] · W[k,c]      (256 terms)
  * `biasRelu s b`    : row r, column c  ↦  max (s[r,c] + b[0,c]) z, z the value of the f32 word 0x00000000
  * `dense2 z W`      : row r, column c  ↦  ∑ₖ z[r,k] · W[k,c]      (64 terms)
  * `biasAdd s b`     : row r, column c  ↦  s[r,c] + b[0,c]
  * `rowDots a b`     : edge e           ↦  ∑ₖ a[e,k] · b[e,k]      (32 terms)
-/
import proofs.«127200_j68779606278430_1_alg».proof.KernelIdeal
import Idealize.ShloMosaic.Lib.ValueIdx

noncomputable section

open scoped BigOperators

namespace Cert.Gcn

open Idealize.ShloMosaic Idealize.ShloMosaic.ValueIdx Cert.KernelIdeal

/-- The first layer's dense product over all 100000 node rows. -/
def dense1 (x : S100000x256.Idx → EReal) (w : S256x64.Idx → EReal) : S100000x64.Idx → EReal :=
  fun i => ∑ k : Fin 256, x (ix2 (n0 := 100000) (i 0) k) * w (ix2 (n1 := 64) k (i 1))

/-- Bias row added to every node row, then the rectifier (the maximum with the value of the f32 zero word, kept as
    the word: both programs spell the same one, so it is never evaluated). -/
def biasRelu (s : S100000x64.Idx → EReal) (b : S1x64.Idx → EReal) : S100000x64.Idx → EReal :=
  fun i => max (s i + b (ix2 (n0 := 1) (n1 := 64) 0 (i 1))) (Ideal.ofBits .f32 0x00000000#32)

/-- The second layer's dense product over all node rows. -/
def dense2 (z : S100000x64.Idx → EReal) (w : S64x32.Idx → EReal) : S100000x32.Idx → EReal :=
  fun i => ∑ k : Fin 64, z (ix2 (n0 := 100000) (i 0) k) * w (ix2 (n1 := 32) k (i 1))

/-- Bias row added to every node row (no activation). -/
def biasAdd (s : S100000x32.Idx → EReal) (b : S1x32.Idx → EReal) : S100000x32.Idx → EReal :=
  fun i => s i + b (ix2 (n0 := 1) (n1 := 32) 0 (i 1))

/-- The decoder on the edge list padded to 123 blocks of 16384 edges: the inner product of the two gathered rows. -/
def rowDots (a b : S2015232x32.Idx → EReal) : S2015232.Idx → EReal :=
  fun e => ∑ k : Fin 32, a (ix2 (n0 := 2015232) (e 0) k) * b (ix2 (n0 := 2015232) (e 0) k)

/-- The decoder on the 2000000 edges themselves: what the reference computes. -/
def edgeDots (a b : S2000000x32.Idx → EReal) : S2000000.Idx → EReal :=
  fun e => ∑ k : Fin 32, a (ix2 (n0 := 2000000) (e 0) k) * b (ix2 (n0 := 2000000) (e 0) k)

end Cert.Gcn

end
-- ==== Proof.KernelValue.lean ====
/-
  The kernel program's result as ONE function of its nine arguments: the five dense stages of the specification,
  joined by the host operations the program runs between its kernel launches. Those host operations — wrapping a
  negative index around, gathering rows at the edge sources, scaling by the edge weights, scatter-adding at the edge
  targets, slicing the two rows of the edge list, padding the gathered rows to a whole number of decoder blocks and
  cutting the padding off again — are spelt here exactly as the program spells them and are never opened: the
  reference runs the same ones.
-/
import proofs.«127200_j68779606278430_1_alg».proof.Proof.Gen.KernelIdeal
import proofs.«127200_j68779606278430_1_alg».proof.Proof.Spec

noncomputable section

namespace Cert.Gcn

open Idealize.ShloMosaic Cert.KernelIdeal Cert.KernelIdeal.Gen

/-- An adjacency index with a negative value counted from the end (100000 added). -/
def wrapAdj (e : IVec S3200000 32) : IVec S3200000 32 :=
  select (cmpi .slt e (broadcastInDim S3200000 ![] bcast_S_S3200000 (constantI S_ 32 0#32)))
    (addi e (broadcastInDim S3200000 ![] bcast_S_S3200000 (constantI S_ 32 100000#32))) e

/-- The sparse aggregation at width 64: row `dst e` of the result collects `val e` times row `src e` of `h`. -/
def agg64 (h : S100000x64.Idx → EReal) (src dst : IVec S3200000 32) (val : S3200000.Idx → EReal) : S100000x64.Idx → EReal :=
  Host.scatterAdd (F := Ideal) scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 dst)
    (mulf (F := Ideal) (φ := .f32)
      (broadcastInDim S3200000x64 ![0, 1] bcast_S3200000x1_S3200000x64_0_1 (broadcastInDim S3200000x1 ![0] bcast_S3200000_S3200000x1_0 val))
      (Host.gather gather_S100000x64_S3200000x1_S3200000x64_1_0_n_n_0_1_164 h
        (broadcastInDim S3200000x1 ![0] bcast_S3200000_S3200000x1_0 (wrapAdj src))))

/-- The same aggregation at width 32. -/
def agg32 (h : S100000x32.Idx → EReal) (src dst : IVec S3200000 32) (val : S3200000.Idx → EReal) : S100000x32.Idx → EReal :=
  Host.scatterAdd (F := Ideal) scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 dst)
    (mulf (F := Ideal) (φ := .f32)
      (broadcastInDim S3200000x32 ![0, 1] bcast_S3200000x1_S3200000x32_0_1 (broadcastInDim S3200000x1 ![0] bcast_S3200000_S3200000x1_0 val))
      (Host.gather gather_S100000x32_S3200000x1_S3200000x32_1_0_n_n_0_1_132 h
        (broadcastInDim S3200000x1 ![0] bcast_S3200000_S3200000x1_0 (wrapAdj src))))

/-- Row 0 of the edge list: the edges' first end points. -/
def edgeEnd0 (ei : IVec S2x2000000 32) : IVec S2000000 32 :=
  shapeCast S2000000 (extractStridedSlice S1x2000000 ![0, 0] ei slices_S2x2000000_S1x2000000_0_0) shapeCasts_S1x2000000_S2000000

/-- Row 1 of the edge list: the edges' second end points. -/
def edgeEnd1 (ei : IVec S2x2000000 32) : IVec S2000000 32 :=
  shapeCast S2000000 (extractStridedSlice S1x2000000 ![1, 0] ei slices_S2x2000000_S1x2000000_1_0) shapeCasts_S1x2000000_S2000000

/-- An edge end point with a negative value counted from the end. -/
def wrapEdge (e : IVec S2000000 32) : IVec S2000000 32 :=
  select (cmpi .slt e (broadcastInDim S2000000 ![] bcast_S_S2000000 (constantI S_ 32 0#32)))
    (addi e (broadcastInDim S2000000 ![] bcast_S_S2000000 (constantI S_ 32 100000#32))) e

/-- The embedding rows at the edges' end points. -/
def edgeRows (z : S100000x32.Idx → EReal) (e : IVec S2000000 32) : S2000000x32.Idx → EReal :=
  Host.gather gather_S100000x32_S2000000x1_S2000000x32_1_0_n_n_0_1_132 z
    (broadcastInDim S2000000x1 ![0] bcast_S2000000_S2000000x1_0 (wrapEdge e))

/-- 15232 rows of the converted integer zero appended, to 123 blocks of 16384 rows. -/
def padRows (r : S2000000x32.Idx → EReal) : S2015232x32.Idx → EReal :=
  pad S2015232x32 ![0, 0] ![15232, 0] ![0, 0] r (sitofp (F := Ideal) .f32 (constantI S_ 32 0#32))
    pads_S2000000x32_S2015232x32_0152320_000 h_S_

/-- The node embeddings after both layers. -/
def embed (x : S100000x256.Idx → EReal) (src dst : IVec S3200000 32) (val : S3200000.Idx → EReal)
    (w1 : S256x64.Idx → EReal) (b1 : S64.Idx → EReal) (w2 : S64x32.Idx → EReal) (b2 : S32.Idx → EReal) : S100000x32.Idx → EReal :=
  biasAdd (agg32 (dense2 (biasRelu (agg64 (dense1 x w1) src dst val) (shapeCast S1x64 b1 shapeCasts_S64_S1x64)) w2) src dst val)
    (shapeCast S1x32 b2 shapeCasts_S32_S1x32)

/-- The decoder over the padded edge list, the padding cut off. -/
def decode (z : S100000x32.Idx → EReal) (ei : IVec S2x2000000 32) : S2000000.Idx → EReal :=
  extractStridedSlice S2000000 ![0]
    (rowDots (padRows (edgeRows z (edgeEnd0 ei))) (padRows (edgeRows z (edgeEnd1 ei)))) slices_S2015232_S2000000_0

/-- The kernel program's result. -/
def kernelValue (x : S100000x256.Idx → EReal) (src dst : IVec S3200000 32) (val : S3200000.Idx → EReal) (ei : IVec S2x2000000 32)
    (w1 : S256x64.Idx → EReal) (b1 : S64.Idx → EReal) (w2 : S64x32.Idx → EReal) (b2 : S32.Idx → EReal) : S2000000.Idx → EReal :=
  decode (embed x src dst val w1 b1 w2 b2) ei

end Cert.Gcn

end
-- ==== Proof.Region0.lean ====
/-
  Region 0 of the kernel program: the row-blocked dense product `dense1`. Twenty grid points each write back the product
  of a 5000-row block of the left operand with the whole right operand (the narrowing of both operands to bf16 is the
  identity on extended reals, and a product accumulated into the zero block is the plain sum over the 256 contracted
  positions). Block t is rows 5000·t … 5000·t + 4999, so the twenty blocks tile the 100000 rows and the result array
  ends at `dense1` of the two arrays as the region found them.
-/
import proofs.«127200_j68779606278430_1_alg».proof.Proof.Gen.KernelIdeal.Frame
import proofs.«127200_j68779606278430_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## The block product at an entry -/

theorem lhs_0 (i : S5000x64.Idx) (q : dot_S5000x256_S256x64_S5000x64_1_0_0_1_n_n.contr.Idx) : (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_1 (i : S5000x64.Idx) (q : dot_S5000x256_S256x64_S5000x64_1_0_0_1_n_n.contr.Idx) : (dot_S5000x256_S256x64_S5000x64_1_0_0_1_n_n.lhsIdx i q 1).val = (q ⟨0, by decide⟩).val :=
  dot_S5000x256_S256x64_S5000x64_1_0_0_1_n_n.lhsIdx_val_of_single rfl i q
theorem rhs_0 (i : S5000x64.Idx) (q : dot_S5000x256_S256x64_S5000x64_1_0_0_1_n_n.contr.Idx) : (dot_S5000x256_S256x64_S5000x64_1_0_0_1_n_n.rhsIdx i q 0).val = (q ⟨0, by decide⟩).val :=
  dot_S5000x256_S256x64_S5000x64_1_0_0_1_n_n.rhsIdx_val_of_single rfl i q
theorem rhs_1 (i : S5000x64.Idx) (q : dot_S5000x256_S256x64_S5000x64_1_0_0_1_n_n.contr.Idx) : (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Entry (p, q) of one block's product: row p of the left block against column q of the right operand. -/
theorem pay_apply (x0 : Vec Ideal S5000x256 .f32) (x1 : Vec Ideal S256x64 .f32) (p : Fin 5000) (q : Fin 64) :
    k0_pay1 x0 x1 (ix2 p q) = ∑ k : Fin 256, x0 (ix2 p k) * x1 (ix2 k q) := by
  unfold k0_pay1
  simp only [matmul, shapeCast_self]
  rw [Ideal.matmul_constant_zero_apply, ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k := funext fun a => Fin.ext (by
    match a with
    | ⟨0, _⟩ => exact lhs_0 _ _
    | ⟨1, _⟩ => exact (lhs_1 _ _).trans hk)
  have er : dot_S5000x256_S256x64_S5000x64_1_0_0_1_n_n.rhsIdx (ix2 p q) ((contrEquiv1 dot_S5000x256_S256x64_S5000x64_1_0_0_1_n_n 256 rfl rfl).symm k) = ix2 k q := funext fun a => Fin.ext (by
    match a with
    | ⟨0, _⟩ => exact (rhs_0 _ _).trans hk
    | ⟨1, _⟩ => exact rhs_1 _ _)
  rw [el, er]
  rfl

/-! ## From the blocks to the array -/

/-- The printed index maps over the grid: the left operand's and the result's block index is the point on the rows
    and zero on the columns; the right operand's block is always the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dat0 (F := Ideal) V c).flushed 2 t = ((cfg0.win 2).blk t).view.read (Elt Ideal) (dense1 (V c main_arg0) (V c main_arg5)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  refine (pay_apply _ _ p q).trans ?_
  show _ = dense1 (V c main_arg0) (V c main_arg5) (((cfg0.win 2).blk t).view.emb (ix2 p q))
  unfold dense1
  refine Finset.sum_congr rfl fun k _ => ?_
  have h0 : iblk0 V c 0 t (ix2 p k) = V c main_arg0 (ix2 (n0 := 100000) ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have h1 : iblk0 V c 1 t (ix2 k q) = V c main_arg5 (ix2 (n1 := 64) k ((((cfg0.win 2).blk t).view.emb (ix2 p q)) 1)) := by
    show V c main_arg5 (((cfg0.win 1).blk t).view.emb (ix2 k q)) = _
    refine congrArg (V c main_arg5) (funext fun a => Fin.ext ?_)
    match a with
    | ⟨0, _⟩ => show win0_1.index t (0 : Fin 2) * 256 + 1 * k.val = k.val; omega
    | ⟨1, _⟩ => show win0_1.index t (1 : Fin 2) * 64 + 1 * q.val = win0_2.index t (1 : Fin 2) * 64 + 1 * q.val; omega
  rw [h0, h1]

/-- An index of the result array lies in point `t`'s block iff each coordinate lies in the block's range. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Row r of the result lies in the block of point r / 5000: the blocks cover the array. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the region: the whole product of the two arrays the region found. -/
theorem out_eq (c : Dev nD) :
    (dat0 (F := Ideal) V c).arrAt 2 cfg0.N = dense1 (V c main_arg0) (V c main_arg5) :=
  (dat0 V c).arrAt_eq_of_cover 2 (dense1 (V c main_arg0) (V c main_arg5)) (fun t _ => flushed_eq V c t) cover

end Cert.KernelIdeal.Region0

end
-- ==== Proof.Region1.lean ====
/-
  Region 1 of the kernel program: the bias row added to every node row, then the rectifier. Twenty grid points each
  write back, for a 5000-row block s of the aggregated features and the one bias row b, the block
  (r, c) ↦ max (s[r,c] + b[0,c]) z with z the value of the f32 zero word (the two shape casts in the body are of a shape
  to itself; the broadcast of the [1, 64] row down 5000 rows reads row 0). Block t is rows 5000·t … 5000·t + 4999, so
  the blocks tile the 100000 rows and the result array ends at `biasRelu` of the two arrays as the region found them.
-/
import proofs.«127200_j68779606278430_1_alg».proof.Proof.Gen.KernelIdeal.Frame
import proofs.«127200_j68779606278430_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## The body's value at an entry -/

/-- Entry (p, q) of what the body stores: the block's entry plus the bias row's entry of that column, then the maximum
    with the value of the zero word. -/
theorem pay_apply (x0 : Vec Ideal S5000x64 .f32) (x1 : Vec Ideal S1x64 .f32) (p : Fin 5000) (q : Fin 64) :
    k1_pay1 x0 x1 (ix2 p q) = max (x0 (ix2 p q) + x1 (ix2 (n0 := 1) 0 q)) (Ideal.ofBits .f32 0x00000000#32) := by
  unfold k1_pay1
  simp only [shapeCast_self]
  show max (x0 (ix2 p q) + broadcastTo S5000x64 x1 broadcasts_S1x64_S5000x64 (ix2 p q)) (Ideal.ofBits .f32 0x00000000#32) = _
  rw [broadcastTo_apply x1 broadcasts_S1x64_S5000x64 (ix2 p q) (ix2 (n0 := 1) 0 q) (fun a => by
    match a with
    | ⟨0, _⟩ => rfl
    | ⟨1, _⟩ => rfl)]

/-! ## From the blocks to the array -/

/-- The printed index maps over the grid: the feature block's and the result's block index is the point on the rows
    and zero on the columns; the bias row's block is always the whole row. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole array's `biasRelu`. -/
theorem flushed_eq (c : Dev nD) (t : Fin cfg1.N) :
    (dat1 (F := Ideal) V c).flushed 2 t = ((cfg1.win 2).blk t).view.read (Elt Ideal) (biasRelu (V c main_v13) (V c main_v14)) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  refine (pay_apply _ _ p q).trans ?_
  show _ = biasRelu (V c main_v13) (V c main_v14) (((cfg1.win 2).blk t).view.emb (ix2 p q))
  unfold biasRelu
  have h0 : iblk1 V c 0 t (ix2 p q) = V c main_v13 (((cfg1.win 2).blk t).view.emb (ix2 p q)) := by
    show V c main_v13 (((cfg1.win 0).blk t).view.emb (ix2 p q)) = _
    refine congrArg (V c main_v13) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  have h1 : iblk1 V c 1 t (ix2 (n0 := 1) 0 q) = V c main_v14 (ix2 (n0 := 1) (n1 := 64) 0 ((((cfg1.win 2).blk t).view.emb (ix2 p q)) 1)) := by
    show V c main_v14 (((cfg1.win 1).blk t).view.emb (ix2 (n0 := 1) 0 q)) = _
    refine congrArg (V c main_v14) (funext fun a => Fin.ext ?_)
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [h0, h1]

/-- An index of the result array lies in point `t`'s block iff each coordinate lies in the block's range. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v15).slice (win1_2.rect t)).set ↔ _
  rw [View.set_slice_whole, Rect.mem_set_unit]
  exact Iff.rfl

/-- Row r of the result lies in the block of point r / 5000: the blocks cover the array. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The result array after the region: `biasRelu` of the two arrays the region found. -/
theorem out_eq (c : Dev nD) :
    (dat1 (F := Ideal) V c).arrAt 2 cfg1.N = biasRelu (V c main_v13) (V c main_v14) :=
  (dat1 V c).arrAt_eq_of_cover 2 (biasRelu (V c main_v13) (V c main_v14)) (fun t _ => flushed_eq V c t) cover

end Cert.KernelIdeal.Region1

end
-- ==== Proof.Region2.lean ====
/-
  Region 2 of the kernel program: the row-blocked dense product `dense2`. Twenty grid points each write back the product
  of a 5000-row block of the left operand with the whole right operand (the narrowing of both operands to bf16 is the
  identity on extended reals, and a product accumulated into the zero block is the plain sum over the 64 contracted
  positions). Block t is rows 5000·t … 5000·t + 4999, so the twenty blocks tile the 100000 rows and the result array
  ends at `dense2` of the two arrays as the region found them.
-/
import proofs.«127200_j68779606278430_1_alg».proof.Proof.Gen.KernelIdeal.Frame
import proofs.«127200_j68779606278430_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## The block product at an entry -/

theorem lhs_0 (i : S5000x32.Idx) (q : dot_S5000x64_S64x32_S5000x32_1_0_0_1_n_n.contr.Idx) : (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs_1 (i : S5000x32.Idx) (q : dot_S5000x64_S64x32_S5000x32_1_0_0_1_n_n.contr.Idx) : (dot_S5000x64_S64x32_S5000x32_1_0_0_1_n_n.lhsIdx i q 1).val = (q ⟨0, by decide⟩).val :=
  dot_S5000x64_S64x32_S5000x32_1_0_0_1_n_n.lhsIdx_val_of_single rfl i q
theorem rhs_0 (i : S5000x32.Idx) (q : dot_S5000x64_S64x32_S5000x32_1_0_0_1_n_n.contr.Idx) : (dot_S5000x64_S64x32_S5000x32_1_0_0_1_n_n.rhsIdx i q 0).val = (q ⟨0, by decide⟩).val :=
  dot_S5000x64_S64x32_S5000x32_1_0_0_1_n_n.rhsIdx_val_of_single rfl i q
theorem rhs_1 (i : S5000x32.Idx) (q : dot_S5000x64_S64x32_S5000x32_1_0_0_1_n_n.contr.Idx) : (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- Entry (p, q) of one block's product: row p of the left block against column q of the right operand. -/
theorem pay_apply (x0 : Vec Ideal S5000x64 .f32) (x1 : Vec Ideal S64x32 .f32) (p : Fin 5000) (q : Fin 32) :
    k2_pay1 x0 x1 (ix2 p q) = ∑ k : Fin 64, x0 (ix2 p k) * x1 (ix2 k q) := by
  unfold k2_pay1
  simp only [matmul, shapeCast_self]
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x32_S5000x32_1_0_0_1_n_n.rhsIdx (ix2 p q) ((contrEquiv1 dot_S5000x64_S64x32_S5000x32_1_0_0_1_n_n 64 rfl rfl).symm k) = ix2 k q := funext fun a => Fin.ext (by
    match a with
    | ⟨0, _⟩ => exact (rhs_0 _ _).trans hk
    | ⟨1, _⟩ => exact rhs_1 _ _)
  rw [el, er]
  rfl

/-! ## From the blocks to the array -/

/-- The printed index maps over the grid: the left operand's and the result's block index is the point on the rows
    and zero on the columns; the right operand's block is always the whole array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product. -/
theorem flushed_eq (c : Dev nD) (t : Fin cfg2.N) :
    (dat2 (F := Ideal) V c).flushed 2 t = ((cfg2.win 2).blk t).view.read (Elt Ideal) (dense2 (V c main_v15) (V c main_arg7)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x32) hz]
  obtain ⟨e0, e1, e2, e3, e4, e5⟩ := idx_facts t
  funext j
  obtain ⟨p, q, rfl⟩ : ∃ (p : Fin 5000) (q : Fin 32), j = ix2 p q := ⟨j 0, j 1, eq_ix2 j⟩
  refine (pay_apply _ _ p q).trans ?_
  show _ = dense2 (V c main_v15) (V c main_arg7) (((cfg2.win 2).blk t).view.emb (ix2 p q))
  unfold dense2
  refine Finset.sum_congr rfl fun k _ => ?_
  have h0 : iblk2 V c 0 t (ix2 p k) = V c main_v15 (ix2 (n0 := 100000) ((((cfg2.win 2).blk t).view.emb (ix2 p q)) 0) k) := by
    show V c main_v15 (((cfg2.win 0).blk t).view.emb (ix2 p k)) = _
    refine congrArg (V c main_v15) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * k.val = k.val; omega
  have h1 : iblk2 V c 1 t (ix2 k q) = V c main_arg7 (ix2 (n1 := 32) k ((((cfg2.win 2).blk t).view.emb (ix2 p q)) 1)) := by
    show V c main_arg7 (((cfg2.win 1).blk t).view.emb (ix2 k q)) = _
    refine congrArg (V c main_arg7) (funext fun a => Fin.ext ?_)
    match a with
    | ⟨0, _⟩ => show win2_1.index t (0 : Fin 2) * 64 + 1 * k.val = k.val; omega
    | ⟨1, _⟩ => show win2_1.index t (1 : Fin 2) * 32 + 1 * q.val = win2_2.index t (1 : Fin 2) * 32 + 1 * q.val; omega
  rw [h0, h1]

/-- An index of the result array lies in point `t`'s block iff each coordinate lies in the block's range. -/
theorem mem_blk (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v16).slice (win2_2.rect t)).set ↔ _
  rw [View.set_slice_whole, Rect.mem_set_unit]
  exact Iff.rfl

/-- Row r of the result lies in the block of point r / 5000: the blocks cover the array. -/
theorem cover (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- The result array after the region: the whole product of the two arrays the region found. -/
theorem out_eq (c : Dev nD) :
    (dat2 (F := Ideal) V c).arrAt 2 cfg2.N = dense2 (V c main_v15) (V c main_arg7) :=
  (dat2 V c).arrAt_eq_of_cover 2 (dense2 (V c main_v15) (V c main_arg7)) (fun t _ => flushed_eq V c t) cover

end Cert.KernelIdeal.Region2

end
-- ==== Proof.Region3.lean ====
/-
  Region 3 of the kernel program: the bias row added to every node row, no activation. Twenty grid points each
  write back, for a 5000-row block s of the aggregated features and the one bias row b, the block
  (r, c) ↦ s[r,c] + b[0,c] (the two shape casts in the body are of a shape to itself; the broadcast of the [1, 32] row
  down 5000 rows reads row 0). Block t is rows 5000·t … 5000·t + 4999, so
  the blocks tile the 100000 rows and the result array ends at `biasAdd` of the two arrays as the region found them.
-/
import proofs.«127200_j68779606278430_1_alg».proof.Proof.Gen.KernelIdeal.Frame
import proofs.«127200_j68779606278430_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## The body's value at an entry -/

/-- Entry (p, q) of what the body stores: the block's entry plus the bias row's entry of that column. -/
theorem pay_apply (x0 : Vec Ideal S5000x32 .f32) (x1 : Vec Ideal S1x32 .f32) (p : Fin 5000) (q : Fin 32) :
    k3_pay1 x0 x1 (ix2 p q) = x0 (ix2 p q) + x1 (ix2 (n0 := 1) 0 q) := by
  unfold k3_pay1
  simp only [shapeCast_self]
  show x0 (ix2 p q) + broadcastTo S5000x32 x1 broadcasts_S1x32_S5000x32 (ix2 p q) = _
  rw [broadcastTo_apply x1 broadcasts_S1x32_S5000x32 (ix2 p q) (ix2 (n0 := 1) 0 q) (fun a => by
    match a with
    | ⟨0, _⟩ => rfl
    | ⟨1, _⟩ => rfl)]

/-! ## From the blocks to the array -/

/-- The printed index maps over the grid: the feature block's and the result's block index is the point on the rows
    and zero on the columns; the bias row's block is always the whole row. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole array's `biasAdd`. -/
theorem flushed_eq (c : Dev nD) (t : Fin cfg3.N) :
    (dat3 (F := Ideal) V c).flushed 2 t = ((cfg3.win 2).blk t).view.read (Elt Ideal) (biasAdd (V c main_v29) (V c main_v30)) := by
  show (cfg3.win 2).cut (grid3.coords t) ((dat3 V c).after 2 t) = _
  rw [after3_2]
  unfold out3_2
  rw [View.canon_unit_zero hz]
  simp only [View.ld_unit_zero (S := S5000x32) hz, View.ld_unit_zero (S := S1x32) hz]
  obtain ⟨e0, e1, e2, e3, e4, e5⟩ := idx_facts t
  funext j
  obtain ⟨p, q, rfl⟩ : ∃ (p : Fin 5000) (q : Fin 32), j = ix2 p q := ⟨j 0, j 1, eq_ix2 j⟩
  refine (pay_apply _ _ p q).trans ?_
  show _ = biasAdd (V c main_v29) (V c main_v30) (((cfg3.win 2).blk t).view.emb (ix2 p q))
  unfold biasAdd
  have h0 : iblk3 V c 0 t (ix2 p q) = V c main_v29 (((cfg3.win 2).blk t).view.emb (ix2 p q)) := by
    show V c main_v29 (((cfg3.win 0).blk t).view.emb (ix2 p q)) = _
    refine congrArg (V c main_v29) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 32 + 1 * q.val = win3_2.index t (1 : Fin 2) * 32 + 1 * q.val; omega
  have h1 : iblk3 V c 1 t (ix2 (n0 := 1) 0 q) = V c main_v30 (ix2 (n0 := 1) (n1 := 32) 0 ((((cfg3.win 2).blk t).view.emb (ix2 p q)) 1)) := by
    show V c main_v30 (((cfg3.win 1).blk t).view.emb (ix2 (n0 := 1) 0 q)) = _
    refine congrArg (V c main_v30) (funext fun a => Fin.ext ?_)
    match a with
    | ⟨0, _⟩ => show win3_1.index t (0 : Fin 2) * 1 + 1 * 0 = 0; omega
    | ⟨1, _⟩ => show win3_1.index t (1 : Fin 2) * 32 + 1 * q.val = win3_2.index t (1 : Fin 2) * 32 + 1 * q.val; omega
  rw [h0, h1]

/-- An index of the result array lies in point `t`'s block iff each coordinate lies in the block's range. -/
theorem mem_blk (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v31).slice (win3_2.rect t)).set ↔ _
  rw [View.set_slice_whole, Rect.mem_set_unit]
  exact Iff.rfl

/-- Row r of the result lies in the block of point r / 5000: the blocks cover the array. -/
theorem cover (i : S100000x32.Idx) : ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨e0, e1, e2, e3, e4, e5⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 32 ≤ (i 1).val ∧ (i 1).val < win3_2.index t (1 : Fin 2) * 32 + 32; omega

/-- The result array after the region: `biasAdd` of the two arrays the region found. -/
theorem out_eq (c : Dev nD) :
    (dat3 (F := Ideal) V c).arrAt 2 cfg3.N = biasAdd (V c main_v29) (V c main_v30) :=
  (dat3 V c).arrAt_eq_of_cover 2 (biasAdd (V c main_v29) (V c main_v30)) (fun t _ => flushed_eq V c t) cover

end Cert.KernelIdeal.Region3

end
-- ==== Proof.Region4.lean ====
/-
  Region 4 of the kernel program: the decoder. 123 grid points each take a block of 16384 rows of the two padded row
  arrays a, b and write back the block e ↦ ∑ₖ a[e,k] · b[e,k] (the two shape casts in the body are of a shape to
  itself; the lane sum into the zero word is the plain sum over the 32 columns). Block t is rows 16384·t … 16384·t + 16383,
  so the 123 blocks tile the 2015232 rows and the result array ends at `rowDots` of the two arrays as the region found them.
-/
import proofs.«127200_j68779606278430_1_alg».proof.Proof.Gen.KernelIdeal.Frame
import proofs.«127200_j68779606278430_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-! ## The body's value at an entry -/

/-- Entry p of what the body stores: the inner product of row p of the two blocks. -/
theorem pay_apply (x0 x1 : FVec Ideal S16384x32 .f32) (p : Fin 16384) :
    k4_pay1 x0 x1 (ix1 p) = ∑ k : Fin 32, x0 (ix2 p k) * x1 (ix2 p k) := by
  unfold k4_pay1
  simp only [shapeCast_self]
  refine (Ideal.multiReduction_add_single (mulf x0 x1) 0x00000000#32 reduces_S16384x32_S16384 (.inl rfl) rfl (ix1 p)).trans ?_
  refine Finset.sum_congr rfl fun k _ => ?_
  have e : reduces_S16384x32_S16384.lift (ix1 p) k = ix2 p k :=
    funext fun a => Fin.ext (by match a with | ⟨0, _⟩ => rfl | ⟨1, _⟩ => rfl)
  show x0 (reduces_S16384x32_S16384.lift (ix1 p) k) * x1 (reduces_S16384x32_S16384.lift (ix1 p) k) = _
  rw [e]
  rfl

/-! ## From the blocks to the array -/

/-- The printed index maps over the grid: each window's block index is the point on the rows (and zero on the
    columns of the two inputs). -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 1) = t.val :=
  (by decide +kernel : ∀ t : Fin grid4.N, _)

/-- What point `t` writes back is block `t` of the whole arrays' `rowDots`. -/
theorem flushed_eq (c : Dev nD) (t : Fin cfg4.N) :
    (dat4 (F := Ideal) V c).flushed 2 t = ((cfg4.win 2).blk t).view.read (Elt Ideal) (rowDots (V c main_v50) (V c main_v51)) := by
  show (cfg4.win 2).cut (grid4.coords t) ((dat4 V c).after 2 t) = _
  rw [after4_2]
  unfold out4_2
  rw [View.canon_unit_zero hz1]
  simp only [View.ld_unit_zero (S := S16384x32) hz]
  obtain ⟨e0, e1, e2, e3, e4⟩ := idx_facts t
  funext j
  obtain ⟨p, rfl⟩ : ∃ (p : Fin 16384), j = ix1 p := ⟨j 0, eq_ix1 j⟩
  refine (pay_apply _ _ p).trans ?_
  show _ = rowDots (V c main_v50) (V c main_v51) (((cfg4.win 2).blk t).view.emb (ix1 p))
  unfold rowDots
  refine Finset.sum_congr rfl fun k _ => ?_
  have h0 : iblk4 V c 0 t (ix2 p k) = V c main_v50 (ix2 (n0 := 2015232) ((((cfg4.win 2).blk t).view.emb (ix1 p)) 0) k) := by
    show V c main_v50 (((cfg4.win 0).blk t).view.emb (ix2 p k)) = _
    refine congrArg (V c main_v50) (funext fun a => Fin.ext ?_)
    match a with
    | ⟨0, _⟩ => show win4_0.index t (0 : Fin 2) * 16384 + 1 * p.val = win4_2.index t (0 : Fin 1) * 16384 + 1 * p.val; omega
    | ⟨1, _⟩ => show win4_0.index t (1 : Fin 2) * 32 + 1 * k.val = k.val; omega
  have h1 : iblk4 V c 1 t (ix2 p k) = V c main_v51 (ix2 (n0 := 2015232) ((((cfg4.win 2).blk t).view.emb (ix1 p)) 0) k) := by
    show V c main_v51 (((cfg4.win 1).blk t).view.emb (ix2 p k)) = _
    refine congrArg (V c main_v51) (funext fun a => Fin.ext ?_)
    match a with
    | ⟨0, _⟩ => show win4_1.index t (0 : Fin 2) * 16384 + 1 * p.val = win4_2.index t (0 : Fin 1) * 16384 + 1 * p.val; omega
    | ⟨1, _⟩ => show win4_1.index t (1 : Fin 2) * 32 + 1 * k.val = k.val; omega
  rw [h0, h1]

/-- An index of the result array lies in point `t`'s block iff its coordinate lies in the block's range. -/
theorem mem_blk (t : Fin cfg4.N) (i : S2015232.Idx) :
    i ∈ ((cfg4.win 2).blk t).view.set ↔ ∀ a : Fin 1, win4_2.index t a * S16384.size a ≤ (i a).val ∧ (i a).val < win4_2.index t a * S16384.size a + S16384.size a := by
  show i ∈ ((View.whole main_v52).slice (win4_2.rect t)).set ↔ _
  rw [View.set_slice_whole, Rect.mem_set_unit]
  exact Iff.rfl

/-- Entry e of the result lies in the block of point e / 16384: the blocks cover the array. -/
theorem cover (i : S2015232.Idx) : ∃ t : Fin cfg4.N, (cfg4.win 2).flush t = true ∧ i ∈ ((cfg4.win 2).blk t).view.set := by
  have hi0 : (i 0).val < 2015232 := (i 0).isLt
  have hN : cfg4.N = 123 := N_4
  obtain ⟨t, ht⟩ : ∃ t : Fin cfg4.N, t.val = (i 0).val / 16384 := ⟨⟨(i 0).val / 16384, by rw [hN]; omega⟩, rfl⟩
  obtain ⟨e0, e1, e2, e3, e4⟩ := idx_facts t
  refine ⟨t, flush4_2 t, ?_⟩
  rw [mem_blk]
  intro a
  match a with
  | ⟨0, _⟩ => show win4_2.index t (0 : Fin 1) * 16384 ≤ (i 0).val ∧ (i 0).val < win4_2.index t (0 : Fin 1) * 16384 + 16384; omega

/-- The result array after the region: `rowDots` of the two arrays the region found. -/
theorem out_eq (c : Dev nD) :
    (dat4 (F := Ideal) V c).arrAt 2 cfg4.N = rowDots (V c main_v50) (V c main_v51) :=
  (dat4 V c).arrAt_eq_of_cover 2 (rowDots (V c main_v50) (V c main_v51)) (fun t _ => flushed_eq V c t) cover

end Cert.KernelIdeal.Region4

end
-- ==== Proof.HostSide.lean ====
/-
  The kernel program's result buffer at the last segment boundary, walked back to the launch memory: each kernel
  region leaves its result array at the specification's whole-array function of the arrays it found (the five region
  modules), each stretch of host operations leaves its results at the operations' values of what it found, and an
  argument buffer is written by nobody. Composed, the result buffer holds `kernelValue` of the nine arguments.
-/
import proofs.«127200_j68779606278430_1_alg».proof.Proof.Gen.KernelIdeal.Frame
import proofs.«127200_j68779606278430_1_alg».proof.Proof.KernelValue
import proofs.«127200_j68779606278430_1_alg».proof.Proof.Region0
import proofs.«127200_j68779606278430_1_alg».proof.Proof.Region1
import proofs.«127200_j68779606278430_1_alg».proof.Proof.Region2
import proofs.«127200_j68779606278430_1_alg».proof.Proof.Region3
import proofs.«127200_j68779606278430_1_alg».proof.Proof.Region4
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostSide

open Cert.KernelIdeal Cert.KernelIdeal.Gen Cert.Gcn

variable (m : (ℓ : Loc nD τ sig) → Buf (Elt Ideal) ℓ) (ρ : Dev nD → PrngReg)

/-! ## After region 0: the first dense product; no argument is a result window -/

theorem v0_at1 (c : Dev nD) : W1 m ρ c (Proc.devRef .tc main_v0)
    = dense1 (m ((c : Thread nD τ).loc main_arg0)) (m ((c : Thread nD τ).loc main_arg5)) :=
  (W1_arr m ρ c 2).trans (Region0.out_eq (V0 m ρ) c)

theorem arg1_at1 (c : Dev nD) : W1 m ρ c (Proc.devRef .tc main_arg1) = m ((c : Thread nD τ).loc main_arg1) :=
  W1_of_ne m ρ c main_arg1 (by decide)
theorem arg2_at1 (c : Dev nD) : W1 m ρ c (Proc.devRef .tc main_arg2) = m ((c : Thread nD τ).loc main_arg2) :=
  W1_of_ne m ρ c main_arg2 (by decide)
theorem arg3_at1 (c : Dev nD) : W1 m ρ c (Proc.devRef .tc main_arg3) = m ((c : Thread nD τ).loc main_arg3) :=
  W1_of_ne m ρ c main_arg3 (by decide)
theorem arg4_at1 (c : Dev nD) : W1 m ρ c (Proc.devRef .tc main_arg4) = m ((c : Thread nD τ).loc main_arg4) :=
  W1_of_ne m ρ c main_arg4 (by decide)
theorem arg6_at1 (c : Dev nD) : W1 m ρ c (Proc.devRef .tc main_arg6) = m ((c : Thread nD τ).loc main_arg6) :=
  W1_of_ne m ρ c main_arg6 (by decide)
theorem arg7_at1 (c : Dev nD) : W1 m ρ c (Proc.devRef .tc main_arg7) = m ((c : Thread nD τ).loc main_arg7) :=
  W1_of_ne m ρ c main_arg7 (by decide)
theorem arg8_at1 (c : Dev nD) : W1 m ρ c (Proc.devRef .tc main_arg8) = m ((c : Thread nD τ).loc main_arg8) :=
  W1_of_ne m ρ c main_arg8 (by decide)

/-! ## After the first host stretch: the width-64 aggregation and the bias vector cast to a row -/

set_option maxHeartbeats 4000000 in
theorem v13_at2 (c : Dev nD) : W2 m ρ c (Proc.devRef .tc main_v13)
    = agg64 (W1 m ρ c (Proc.devRef .tc main_v0)) (W1 m ρ c (Proc.devRef .tc main_arg1)) (W1 m ρ c (Proc.devRef .tc main_arg2)) (W1 m ρ c (Proc.devRef .tc main_arg3)) := by
  show StableHlo.after hostOps1 (W1 m ρ c) (Proc.devRef .tc main_v13) = _
  after_results_simp
  rfl

set_option maxHeartbeats 4000000 in
theorem v14_at2 (c : Dev nD) : W2 m ρ c (Proc.devRef .tc main_v14)
    = shapeCast S1x64 (W1 m ρ c (Proc.devRef .tc main_arg6)) shapeCasts_S64_S1x64 := by
  show StableHlo.after hostOps1 (W1 m ρ c) (Proc.devRef .tc main_v14) = _
  after_results_simp
  rfl

/-- The stretch writes none of the arguments. -/
theorem keep1_arg1 (c : Dev nD) : W2 m ρ c (Proc.devRef .tc main_arg1) = W1 m ρ c (Proc.devRef .tc main_arg1) := by
  show StableHlo.after hostOps1 (W1 m ρ c) (Proc.devRef .tc main_arg1) = _
  after_results_simp <;> rfl
theorem keep1_arg2 (c : Dev nD) : W2 m ρ c (Proc.devRef .tc main_arg2) = W1 m ρ c (Proc.devRef .tc main_arg2) := by
  show StableHlo.after hostOps1 (W1 m ρ c) (Proc.devRef .tc main_arg2) = _
  after_results_simp <;> rfl
theorem keep1_arg3 (c : Dev nD) : W2 m ρ c (Proc.devRef .tc main_arg3) = W1 m ρ c (Proc.devRef .tc main_arg3) := by
  show StableHlo.after hostOps1 (W1 m ρ c) (Proc.devRef .tc main_arg3) = _
  after_results_simp <;> rfl
theorem keep1_arg4 (c : Dev nD) : W2 m ρ c (Proc.devRef .tc main_arg4) = W1 m ρ c (Proc.devRef .tc main_arg4) := by
  show StableHlo.after hostOps1 (W1 m ρ c) (Proc.devRef .tc main_arg4) = _
  after_results_simp <;> rfl
theorem keep1_arg7 (c : Dev nD) : W2 m ρ c (Proc.devRef .tc main_arg7) = W1 m ρ c (Proc.devRef .tc main_arg7) := by
  show StableHlo.after hostOps1 (W1 m ρ c) (Proc.devRef .tc main_arg7) = _
  after_results_simp <;> rfl
theorem keep1_arg8 (c : Dev nD) : W2 m ρ c (Proc.devRef .tc main_arg8) = W1 m ρ c (Proc.devRef .tc main_arg8) := by
  show StableHlo.after hostOps1 (W1 m ρ c) (Proc.devRef .tc main_arg8) = _
  after_results_simp <;> rfl

/-! ## After regions 1 and 2: the first layer's activations, then the second dense product -/

theorem v15_at3 (c : Dev nD) : W3 m ρ c (Proc.devRef .tc main_v15)
    = biasRelu (W2 m ρ c (Proc.devRef .tc main_v13)) (W2 m ρ c (Proc.devRef .tc main_v14)) :=
  (W3_arr m ρ c 2).trans (Region1.out_eq (V2 m ρ) c)

theorem arg7_at3 (c : Dev nD) : W3 m ρ c (Proc.devRef .tc main_arg7) = m ((c : Thread nD τ).loc main_arg7) :=
  (W3_of_ne m ρ c main_arg7 (by decide)).trans ((keep1_arg7 m ρ c).trans (arg7_at1 m ρ c))

theorem v16_at4 (c : Dev nD) : W4 m ρ c (Proc.devRef .tc main_v16)
    = dense2 (W3 m ρ c (Proc.devRef .tc main_v15)) (W3 m ρ c (Proc.devRef .tc main_arg7)) :=
  (W4_arr m ρ c 2).trans (Region2.out_eq (V3 m ρ) c)

theorem arg1_at4 (c : Dev nD) : W4 m ρ c (Proc.devRef .tc main_arg1) = m ((c : Thread nD τ).loc main_arg1) :=
  (W4_of_ne m ρ c main_arg1 (by decide)).trans ((W3_of_ne m ρ c main_arg1 (by decide)).trans ((keep1_arg1 m ρ c).trans (arg1_at1 m ρ c)))
theorem arg2_at4 (c : Dev nD) : W4 m ρ c (Proc.devRef .tc main_arg2) = m ((c : Thread nD τ).loc main_arg2) :=
  (W4_of_ne m ρ c main_arg2 (by decide)).trans ((W3_of_ne m ρ c main_arg2 (by decide)).trans ((keep1_arg2 m ρ c).trans (arg2_at1 m ρ c)))
theorem arg3_at4 (c : Dev nD) : W4 m ρ c (Proc.devRef .tc main_arg3) = m ((c : Thread nD τ).loc main_arg3) :=
  (W4_of_ne m ρ c main_arg3 (by decide)).trans ((W3_of_ne m ρ c main_arg3 (by decide)).trans ((keep1_arg3 m ρ c).trans (arg3_at1 m ρ c)))
theorem arg4_at4 (c : Dev nD) : W4 m ρ c (Proc.devRef .tc main_arg4) = m ((c : Thread nD τ).loc main_arg4) :=
  (W4_of_ne m ρ c main_arg4 (by decide)).trans ((W3_of_ne m ρ c main_arg4 (by decide)).trans ((keep1_arg4 m ρ c).trans (arg4_at1 m ρ c)))
theorem arg8_at4 (c : Dev nD) : W4 m ρ c (Proc.devRef .tc main_arg8) = m ((c : Thread nD τ).loc main_arg8) :=
  (W4_of_ne m ρ c main_arg8 (by decide)).trans ((W3_of_ne m ρ c main_arg8 (by decide)).trans ((keep1_arg8 m ρ c).trans (arg8_at1 m ρ c)))

/-! ## After the second host stretch and region 3: the width-32 aggregation, then the embeddings -/

set_option maxHeartbeats 4000000 in
theorem v29_at5 (c : Dev nD) : W5 m ρ c (Proc.devRef .tc main_v29)
    = agg32 (W4 m ρ c (Proc.devRef .tc main_v16)) (W4 m ρ c (Proc.devRef .tc main_arg1)) (W4 m ρ c (Proc.devRef .tc main_arg2)) (W4 m ρ c (Proc.devRef .tc main_arg3)) := by
  show StableHlo.after hostOps3 (W4 m ρ c) (Proc.devRef .tc main_v29) = _
  after_results_simp
  rfl

set_option maxHeartbeats 4000000 in
theorem v30_at5 (c : Dev nD) : W5 m ρ c (Proc.devRef .tc main_v30)
    = shapeCast S1x32 (W4 m ρ c (Proc.devRef .tc main_arg8)) shapeCasts_S32_S1x32 := by
  show StableHlo.after hostOps3 (W4 m ρ c) (Proc.devRef .tc main_v30) = _
  after_results_simp
  rfl

theorem keep3_arg4 (c : Dev nD) : W5 m ρ c (Proc.devRef .tc main_arg4) = W4 m ρ c (Proc.devRef .tc main_arg4) := by
  show StableHlo.after hostOps3 (W4 m ρ c) (Proc.devRef .tc main_arg4) = _
  after_results_simp <;> rfl

theorem v31_at6 (c : Dev nD) : W6 m ρ c (Proc.devRef .tc main_v31)
    = biasAdd (W5 m ρ c (Proc.devRef .tc main_v29)) (W5 m ρ c (Proc.devRef .tc main_v30)) :=
  (W6_arr m ρ c 2).trans (Region3.out_eq (V5 m ρ) c)

theorem arg4_at6 (c : Dev nD) : W6 m ρ c (Proc.devRef .tc main_arg4) = m ((c : Thread nD τ).loc main_arg4) :=
  (W6_of_ne m ρ c main_arg4 (by decide)).trans ((keep3_arg4 m ρ c).trans (arg4_at4 m ρ c))

/-- The node embeddings, as the decoder's host stretch finds them. -/
theorem embed_at6 (c : Dev nD) : W6 m ρ c (Proc.devRef .tc main_v31)
    = embed (m ((c : Thread nD τ).loc main_arg0)) (m ((c : Thread nD τ).loc main_arg1)) (m ((c : Thread nD τ).loc main_arg2)) (m ((c : Thread nD τ).loc main_arg3))
        (m ((c : Thread nD τ).loc main_arg5)) (m ((c : Thread nD τ).loc main_arg6)) (m ((c : Thread nD τ).loc main_arg7)) (m ((c : Thread nD τ).loc main_arg8)) := by
  rw [v31_at6, v29_at5, v30_at5, v16_at4, v15_at3, v13_at2, v14_at2, v0_at1, arg1_at1, arg2_at1, arg3_at1, arg6_at1,
    arg7_at3, arg1_at4, arg2_at4, arg3_at4, arg8_at4]
  rfl

/-! ## The decoder's host stretches: the two gathered row arrays, padded -/

set_option maxHeartbeats 8000000 in
theorem v50_at10 (c : Dev nD) : W10 m ρ c (Proc.devRef .tc main_v50)
    = padRows (edgeRows (W6 m ρ c (Proc.devRef .tc main_v31)) (edgeEnd0 (W6 m ρ c (Proc.devRef .tc main_arg4)))) := by
  show StableHlo.after hostOps4_3 (StableHlo.after hostOps4_2 (StableHlo.after hostOps4_1 (StableHlo.after hostOps4 (W6 m ρ c)))) (Proc.devRef .tc main_v50) = _
  after_results_simp
  rfl

set_option maxHeartbeats 8000000 in
theorem v51_at10 (c : Dev nD) : W10 m ρ c (Proc.devRef .tc main_v51)
    = padRows (edgeRows (W6 m ρ c (Proc.devRef .tc main_v31)) (edgeEnd1 (W6 m ρ c (Proc.devRef .tc main_arg4)))) := by
  show StableHlo.after hostOps4_3 (StableHlo.after hostOps4_2 (StableHlo.after hostOps4_1 (StableHlo.after hostOps4 (W6 m ρ c)))) (Proc.devRef .tc main_v51) = _
  after_results_simp
  rfl

/-! ## Region 4 and the closing slice -/

theorem v52_at11 (c : Dev nD) : W11 m ρ c (Proc.devRef .tc main_v52)
    = rowDots (W10 m ρ c (Proc.devRef .tc main_v50)) (W10 m ρ c (Proc.devRef .tc main_v51)) :=
  (W11_arr m ρ c 2).trans (Region4.out_eq (V10 m ρ) c)

theorem v53_at12 (c : Dev nD) : W12 m ρ c (Proc.devRef .tc main_v53)
    = extractStridedSlice S2000000 ![0] (W11 m ρ c (Proc.devRef .tc main_v52)) slices_S2015232_S2000000_0 := by
  show StableHlo.after hostOps5 (W11 m ρ c) (Proc.devRef .tc main_v53) = _
  after_results_simp <;> rfl

/-- THE RESULT BUFFER at the last boundary: the kernel program's function of the nine arguments. -/
theorem result_eq (c : Dev nD) : W12 m ρ c (Proc.devRef .tc main_v53)
    = kernelValue (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) := by
  rw [v53_at12, v52_at11, v50_at10, v51_at10, embed_at6, arg4_at6]
  rfl

end Cert.KernelIdeal.HostSide

end
-- ==== Proof.Decode.lean ====
/-
  The padding and the final slice of the decoder cancel: the 15232 appended rows only feed decoder entries the slice
  cuts off, and on the first 2000000 rows a padded array reads the array itself. So the decoder over the padded
  edge list, cut back, is the inner product over the 2000000 edges.
-/
import proofs.«127200_j68779606278430_1_alg».proof.Proof.KernelValue
import Idealize.ShloMosaic.Lib.Pipeline.Value
import Idealize.ShloMosaic.Lib.KernelVsHost
import Idealize.ShloMosaic.Lib.ValueIdx

noncomputable section

open scoped BigOperators

namespace Cert.Gcn

open Idealize.ShloMosaic Idealize.ShloMosaic.ValueIdx Cert.KernelIdeal Cert.KernelIdeal.Gen

/-- Below row 2000000 the padded array is the array. -/
theorem padRows_apply (x : S2000000x32.Idx → EReal) (r : Fin 2000000) (hr : r.val < 2015232) (k : Fin 32) :
    padRows x (ix2 (⟨r.val, hr⟩ : Fin 2015232) k) = x (ix2 r k) := by
  unfold padRows
  exact pad_apply_of_inside ![0, 0] ![15232, 0] ![0, 0] x _ pads_S2000000x32_S2015232x32_0152320_000 h_S_
    (ix2 (⟨r.val, hr⟩ : Fin 2015232) k) (ix2 r k) (fun a => by
      match a with
      | ⟨0, _⟩ => show r.val = 0 + r.val * (0 + 1); omega
      | ⟨1, _⟩ => show k.val = 0 + k.val * (0 + 1); omega)

/-- The decoder over the padded rows, the padding cut off again, is the decoder over the rows. -/
theorem slice_rowDots_padRows (a b : S2000000x32.Idx → EReal) :
    extractStridedSlice S2000000 ![0] (rowDots (padRows a) (padRows b)) slices_S2015232_S2000000_0 = edgeDots a b := by
  funext e
  obtain ⟨r, rfl⟩ : ∃ r : Fin 2000000, e = ix1 r := ⟨e 0, eq_ix1 e⟩
  have hr : r.val < 2015232 := by have := r.isLt; omega
  rw [extractStridedSlice_apply ![0] _ slices_S2015232_S2000000_0 (ix1 r) (ix1 (⟨r.val, hr⟩ : Fin 2015232)) (fun a => by
    match a with
    | ⟨0, _⟩ => show r.val = 0 + r.val; omega)]
  unfold rowDots edgeDots
  refine Finset.sum_congr rfl fun k _ => ?_
  show padRows a (ix2 (⟨r.val, hr⟩ : Fin 2015232) k) * padRows b (ix2 (⟨r.val, hr⟩ : Fin 2015232) k) = a (ix2 r k) * b (ix2 r k)
  rw [padRows_apply a r hr k, padRows_apply b r hr k]

/-- So the kernel program's decoder is the inner product of the two gathered rows, edge by edge. -/
theorem decode_eq (z : S100000x32.Idx → EReal) (ei : IVec S2x2000000 32) :
    decode z ei = edgeDots (edgeRows z (edgeEnd0 ei)) (edgeRows z (edgeEnd1 ei)) :=
  slice_rowDots_padRows _ _

end Cert.Gcn

end
-- ==== Proof.RefValue.lean ====
/-
  The reference's value against the specification. Its run's result term is opened once: each of its two dense
  products is the specification's sum over the contracted positions, its two bias additions (a bias vector broadcast to
  a row, the row broadcast down the node rows; after the first the maximum with the broadcast zero word) are the
  specification's `biasRelu` and `biasAdd` of the bias vector cast to a row, and its closing row sum of the product of
  the two gathered row arrays, into the zero word, is the specification's inner product edge by edge. What is left —
  the index wrap-arounds, the gathers, the scalings and the scatter-adds — is what the kernel program runs on the host,
  operation for operation, so the reference's result is `kernelValue` of the same nine arguments.
-/
import proofs.«127200_j68779606278430_1_alg».proof.Proof.Gen.ReferenceIdeal.Run
import proofs.«127200_j68779606278430_1_alg».proof.Proof.Gen.ReferenceIdeal.Read
import proofs.«127200_j68779606278430_1_alg».proof.Proof.KernelValue
import proofs.«127200_j68779606278430_1_alg».proof.Proof.Decode
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.Gcn

/-! ## The dense stages -/

/-- The host's first product is the sum over the 256 contracted positions. -/
theorem dot1_eq (x : FVec Ideal S100000x256 .f32) (w : FVec Ideal S256x64 .f32) :
    Host.dotGeneral (F := Ideal) dot_S100000x256_S256x64_S100000x64_1_0_0_1_n_n none x w = dense1 x w := by
  funext i
  simp only [Host.dotGeneral]
  rw [Ideal.dotGeneral_apply, ← Equiv.sum_comp (contrEquiv1 dot_S100000x256_S256x64_S100000x64_1_0_0_1_n_n 256 rfl rfl).symm]
  unfold dense1
  refine Finset.sum_congr rfl fun k _ => ?_
  have hk := contrEquiv1_symm_val dot_S100000x256_S256x64_S100000x64_1_0_0_1_n_n 256 rfl rfl k
  have el : dot_S100000x256_S256x64_S100000x64_1_0_0_1_n_n.lhsIdx i ((contrEquiv1 dot_S100000x256_S256x64_S100000x64_1_0_0_1_n_n 256 rfl rfl).symm k) = ix2 (n0 := 100000) (i 0) k := funext fun a => Fin.ext (by
    match a with
    | ⟨0, _⟩ => exact Read.lhs_main_v0_0 _ _
    | ⟨1, _⟩ => exact (Read.lhs_main_v0_1 _ _).trans hk)
  have er : dot_S100000x256_S256x64_S100000x64_1_0_0_1_n_n.rhsIdx i ((contrEquiv1 dot_S100000x256_S256x64_S100000x64_1_0_0_1_n_n 256 rfl rfl).symm k) = ix2 (n1 := 64) k (i 1) := funext fun a => Fin.ext (by
    match a with
    | ⟨0, _⟩ => exact (Read.rhs_main_v0_0 _ _).trans hk
    | ⟨1, _⟩ => exact Read.rhs_main_v0_1 _ _)
  rw [el, er]

/-- The host's second product is the sum over the 64 contracted positions. -/
theorem dot2_eq (x : FVec Ideal S100000x64 .f32) (w : FVec Ideal S64x32 .f32) :
    Host.dotGeneral (F := Ideal) dot_S100000x64_S64x32_S100000x32_1_0_0_1_n_n none x w = dense2 x w := by
  funext i
  simp only [Host.dotGeneral]
  rw [Ideal.dotGeneral_apply, ← Equiv.sum_comp (contrEquiv1 dot_S100000x64_S64x32_S100000x32_1_0_0_1_n_n 64 rfl rfl).symm]
  unfold dense2
  refine Finset.sum_congr rfl fun k _ => ?_
  have hk := contrEquiv1_symm_val dot_S100000x64_S64x32_S100000x32_1_0_0_1_n_n 64 rfl rfl k
  have el : dot_S100000x64_S64x32_S100000x32_1_0_0_1_n_n.lhsIdx i ((contrEquiv1 dot_S100000x64_S64x32_S100000x32_1_0_0_1_n_n 64 rfl rfl).symm k) = ix2 (n0 := 100000) (i 0) k := funext fun a => Fin.ext (by
    match a with
    | ⟨0, _⟩ => exact Read.lhs_main_v18_0 _ _
    | ⟨1, _⟩ => exact (Read.lhs_main_v18_1 _ _).trans hk)
  have er : dot_S100000x64_S64x32_S100000x32_1_0_0_1_n_n.rhsIdx i ((contrEquiv1 dot_S100000x64_S64x32_S100000x32_1_0_0_1_n_n 64 rfl rfl).symm k) = ix2 (n1 := 32) k (i 1) := funext fun a => Fin.ext (by
    match a with
    | ⟨0, _⟩ => exact (Read.rhs_main_v18_0 _ _).trans hk
    | ⟨1, _⟩ => exact Read.rhs_main_v18_1 _ _)
  rw [el, er]

/-- The first layer's bias and rectifier: the bias vector broadcast to a row and down the rows reads entry c of the
    vector at (r, c), which is what the vector cast to a [1, 64] row reads at (0, c). -/
theorem relu_eq (s : FVec Ideal S100000x64 .f32) (b : FVec Ideal S64 .f32) :
    maximumf (F := Ideal) (addf (F := Ideal) s (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
    = biasRelu s (shapeCast Cert.KernelIdeal.S1x64 b Cert.KernelIdeal.Gen.shapeCasts_S64_S1x64) := by
  funext i
  obtain ⟨r, q, rfl⟩ : ∃ (r : Fin 100000) (q : Fin 64), i = ix2 r q := ⟨i 0, i 1, eq_ix2 i⟩
  show max (s (ix2 r q) + broadcastInDim S100000x64 ![0, 1] bcast_S1x64_S100000x64_0_1 (broadcastInDim S1x64 ![1] bcast_S64_S1x64_1 b) (ix2 r q)) (Ideal.ofBits .f32 0x00000000#32)
    = max (s (ix2 r q) + shapeCast Cert.KernelIdeal.S1x64 b Cert.KernelIdeal.Gen.shapeCasts_S64_S1x64 (ix2 (n0 := 1) 0 q)) (Ideal.ofBits .f32 0x00000000#32)
  rw [broadcastInDim_apply ![0, 1] bcast_S1x64_S100000x64_0_1 _ (ix2 r q) (ix2 (n0 := 1) 0 q) (fun a => by
        match a with
        | ⟨0, _⟩ => show 0 = if (1 : Nat) = 1 then 0 else r.val; rw [if_pos rfl]
        | ⟨1, _⟩ => show q.val = if (64 : Nat) = 1 then 0 else q.val; rw [if_neg (by decide)]),
      broadcastInDim_apply ![1] bcast_S64_S1x64_1 b (ix2 (n0 := 1) 0 q) (ix1 q) (fun a => by
        match a with
        | ⟨0, _⟩ => show q.val = if (64 : Nat) = 1 then 0 else q.val; rw [if_neg (by decide)]),
      shapeCast_a_1a_apply b _ 0 q]

/-- The second layer's bias, the same way at width 32. -/
theorem bias_eq (s : FVec Ideal S100000x32 .f32) (b : FVec Ideal S32 .f32) :
    addf (F := Ideal) s (broadcastInDim S100000x32 ![0, 1] bcast_S1x32_S100000x32_0_1 (broadcastInDim S1x32 ![1] bcast_S32_S1x32_1 b))
    = biasAdd s (shapeCast Cert.KernelIdeal.S1x32 b Cert.KernelIdeal.Gen.shapeCasts_S32_S1x32) := by
  funext i
  obtain ⟨r, q, rfl⟩ : ∃ (r : Fin 100000) (q : Fin 32), i = ix2 r q := ⟨i 0, i 1, eq_ix2 i⟩
  show s (ix2 r q) + broadcastInDim S100000x32 ![0, 1] bcast_S1x32_S100000x32_0_1 (broadcastInDim S1x32 ![1] bcast_S32_S1x32_1 b) (ix2 r q)
    = s (ix2 r q) + shapeCast Cert.KernelIdeal.S1x32 b Cert.KernelIdeal.Gen.shapeCasts_S32_S1x32 (ix2 (n0 := 1) 0 q)
  rw [broadcastInDim_apply ![0, 1] bcast_S1x32_S100000x32_0_1 _ (ix2 r q) (ix2 (n0 := 1) 0 q) (fun a => by
        match a with
        | ⟨0, _⟩ => show 0 = if (1 : Nat) = 1 then 0 else r.val; rw [if_pos rfl]
        | ⟨1, _⟩ => show q.val = if (32 : Nat) = 1 then 0 else q.val; rw [if_neg (by decide)]),
      broadcastInDim_apply ![1] bcast_S32_S1x32_1 b (ix2 (n0 := 1) 0 q) (ix1 q) (fun a => by
        match a with
        | ⟨0, _⟩ => show q.val = if (32 : Nat) = 1 then 0 else q.val; rw [if_neg (by decide)]),
      shapeCast_a_1a_apply b _ 0 q]

/-- The closing row sum: zero plus the sum over the 32 columns of the two rows' products. -/
theorem reduce_eq (A B : FVec Ideal S2000000x32 .f32) :
    Host.reduceAdd (F := Ideal) (mulf (F := Ideal) A B) (constant (F := Ideal) S_ .f32 0x00000000#32) reducesTo_S2000000x32_S2000000_d1 h_S_
    = edgeDots A B := by
  funext e
  simp only [Host.reduceAdd, Ideal.hostReduceAdd_def]
  rw [Ideal.hostReduceAdd_single reducesTo_S2000000x32_S2000000_d1 (by decide)]
  have h0 : (constant (F := Ideal) S_ .f32 0x00000000#32) (Shape.Idx.first h_S_) = 0 := Ideal.ofBits_zero_f32
  rw [h0, zero_add]
  unfold edgeDots
  refine Finset.sum_congr rfl fun k _ => ?_
  exact congrArg₂ (· * ·)
    (congrArg A (funext fun a => Fin.ext (by match a with | ⟨0, _⟩ => rfl | ⟨1, _⟩ => rfl)))
    (congrArg B (funext fun a => Fin.ext (by match a with | ⟨0, _⟩ => rfl | ⟨1, _⟩ => rfl)))

/-! ## The whole term -/

set_option maxRecDepth 8192 in
set_option maxHeartbeats 4000000 in
/-- The reference's result is the kernel program's function of the same arguments. -/
theorem result_eq (m : (ℓ : Loc nD τ sig) → Buf (Elt Ideal) ℓ) (c : Dev nD) :
    Value.res_main_v54 (F := Ideal) m c
      = kernelValue (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Value.res_main_v54
  rw [dot1_eq, relu_eq, dot2_eq, bias_eq, reduce_eq]
  unfold kernelValue
  rw [decode_eq]
  rfl

end Cert.ReferenceIdeal.RefValue

end
-- ==== Proof.lean ====
/-
  A two-layer graph convolution with an inner-product decoder over the edges, as five TensorCore kernel launches among
  host operations, against its jnp reference, over the extended reals.

  Both programs compute, for node features x, a weighted adjacency (src, dst, val), an edge list, and weights W1, b1, W2, b2:
      z1 = max (A·(x W1) + b1) 0,   z2 = A·(z1 W2) + b2,   score e = ∑ₖ z2[s e, k] · z2[d e, k],
  where A·h is the sparse aggregation (row `dst e` collects `val e` times row `src e` of h) and (s e, d e) are the two end
  points of edge e. The kernel program launches the two dense products row block by row block (bf16 operands, an identity on
  extended reals), the two bias additions row block by row block, and the decoder on the edge list padded to 123 blocks of
  16384 edges, cutting the padding off afterwards; the aggregation, the gathers and the padding it leaves to host
  operations. The reference does everything with host operations. The two results agree because (i) a row-blocked dense
  product is the dense product: each output row depends on its own input row only, and the blocks tile the rows; (ii)
  the bias additions and the rectifier are pointwise, the bias row reaching every node row either way; (iii) the padded
  rows only feed decoder entries that the final slice cuts off; (iv) everything else is the same host operation applied
  to equal values. No algebraic law beyond reading a sum index by index is needed, so the finiteness of the inputs is
  never used.

  Modules: `Spec` (the five dense stages as whole-array functions), `KernelValue` (the kernel program's result as one
  function of its arguments), `Region0` … `Region4` (each launch's result array is its stage of the arrays it found),
  `HostSide` (the result buffer at the last segment boundary is `kernelValue` of the arguments), `ResultRun` (the
  kernel program's run with its result buffer read at that boundary), `Decode` (padding and slice cancel), `RefValue`
  (the reference's result term is the same function).
-/
import proofs.«127200_j68779606278430_1_alg».proof.Defs
import proofs.«127200_j68779606278430_1_alg».proof.Proof.Gen.Kernel
import proofs.«127200_j68779606278430_1_alg».proof.Proof.Gen.Kernel.Skeleton
import proofs.«127200_j68779606278430_1_alg».proof.Proof.Gen.Kernel.Launch
import proofs.«127200_j68779606278430_1_alg».proof.Proof.Gen.Kernel.Points
import proofs.«127200_j68779606278430_1_alg».proof.Proof.Gen.Kernel.Frame
import proofs.«127200_j68779606278430_1_alg».proof.Proof.Gen.KernelIdeal
import proofs.«127200_j68779606278430_1_alg».proof.Proof.Gen.KernelIdeal.Skeleton
import proofs.«127200_j68779606278430_1_alg».proof.Proof.Gen.KernelIdeal.Launch
import proofs.«127200_j68779606278430_1_alg».proof.Proof.Gen.KernelIdeal.Points
import proofs.«127200_j68779606278430_1_alg».proof.Proof.Gen.KernelIdeal.Frame
import proofs.«127200_j68779606278430_1_alg».proof.Proof.Gen.ReferenceIdeal
import proofs.«127200_j68779606278430_1_alg».proof.Proof.Gen.ReferenceIdeal.Run
import proofs.«127200_j68779606278430_1_alg».proof.Proof.Gen.Pre_finite_inputs
import proofs.«127200_j68779606278430_1_alg».proof.Proof.ResultRun
import proofs.«127200_j68779606278430_1_alg».proof.Proof.HostSide
import proofs.«127200_j68779606278430_1_alg».proof.Proof.RefValue
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result at `kernelValue` of the (agreeing) arguments. -/
theorem algebraic : Cert.algebraic_KernelIdeal_ReferenceIdeal := by
  intro m ρ m' ρ' _ hagree
  refine ⟨fun c => Cert.Gcn.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.HostSide.result_eq m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.RefValue.result_eq m' c, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
